-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S28672x1024 : Shape := ⟨2, ![28672, 1024]⟩
abbrev S28672 : Shape := ⟨1, ![28672]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S28672 : S_.BroadcastsInDim S28672 (![] : Fin 0 → Fin S28672.rank)
  reducesTo_S28672_S_d0 : S28672.ReducesTo [0] S_

variable [Facts]

def fn {F : FTy → Type} [FloatOps F] (main_arg0 : FVec F S16x8192 .f32) (main_arg1 : IVec S28672x1024 32) (main_arg2 : FVec F S28672 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S28672 .f32 := Host.absf main_arg2
  let main_cst_0 : FVec F S_ .f32 := constant S_ .f32 0x7F800000#32
  let main_v5 : FVec F S28672 .f32 := broadcastInDim S28672 ![] bcast_S_S28672 main_cst_0
  let main_v6 : IVec S28672 1 := cmpf .olt main_v4 main_v5
  let main_c_1 : IVec S_ 1 := constantI S_ 1 1#1
  let main_v7 : IVec S_ 1 := (fun x v => Host.reduce IntOp.andi x v reducesTo_S28672_S_d0 h_S_) main_v6 main_c_1
  let main_v8 : IVec S_ 1 := andi main_v3 main_v7
  main_v8
-- ==== Kernel.lean ====
abbrev S16x8192 : Shape := ⟨2, ![16, 8192]⟩
abbrev S28672x1024 : Shape := ⟨2, ![28672, 1024]⟩
abbrev S28672 : Shape := ⟨1, ![28672]⟩
abbrev S16x1024x8 : Shape := ⟨3, ![16, 1024, 8]⟩
abbrev S8x16x1024 : Shape := ⟨3, ![8, 16, 1024]⟩
abbrev S_ : Shape := ⟨0, ![]⟩
abbrev S16 : Shape := ⟨1, ![16]⟩
abbrev S16x1 : Shape := ⟨2, ![16, 1]⟩
abbrev S1x28672 : Shape := ⟨2, ![1, 28672]⟩
abbrev S16x28672 : Shape := ⟨2, ![16, 28672]⟩
abbrev S1024x1024 : Shape := ⟨2, ![1024, 1024]⟩
abbrev S1x1024 : Shape := ⟨2, ![1, 1024]⟩
abbrev S16x1024 : Shape := ⟨2, ![16, 1024]⟩
abbrev S1x16x1024 : Shape := ⟨3, ![1, 16, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S28672x1024, .i32⟩
  | .hbm, ⟨2, _⟩ => ⟨S28672, .f32⟩
  | .hbm, ⟨3, _⟩ => ⟨S16x1024x8, .f32⟩
  | .hbm, ⟨4, _⟩ => ⟨S8x16x1024, .f32⟩
  | .hbm, ⟨5, _⟩ => ⟨S8x16x1024, .bf16⟩
  | .hbm, ⟨6, _⟩ => ⟨S_, .f32⟩
  | .hbm, ⟨7, _⟩ => ⟨S16, .f32⟩
  | .hbm, ⟨8, _⟩ => ⟨S16x1, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S1x28672, .f32⟩
  | .hbm, ⟨13, _⟩ => ⟨S16x28672, .f32⟩
  | .local _ .vmem, ⟨0, _⟩ => ⟨S1024x1024, .i32⟩
  | .local _ .vmem, ⟨1, _⟩ => ⟨S1024x1024, .i32⟩
  | .local _ .vmem, ⟨2, _⟩ => ⟨S8x16x1024, .bf16⟩
  | .local _ .vmem, ⟨3, _⟩ => ⟨S1x1024, .f32⟩
  | .local _ .vmem, ⟨4, _⟩ => ⟨S1x1024, .f32⟩
  | .local _ .vmem, ⟨5, _⟩ => ⟨S16x1, .f32⟩
  | .local _ .vmem, ⟨6, _⟩ => ⟨S16x1024, .f32⟩
  | .local _ .vmem, ⟨7, _⟩ => ⟨S16x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x8192_S16x1024x8 : S16x8192.ShapeCasts S16x1024x8
  transposes_S16x1024x8_S8x16x1024_2_0_1 : S16x1024x8.Transposes [2, 0, 1] S8x16x1024
  bitsLt_bf16_f32 : FTy.bits .bf16 < FTy.bits .f32
  reducesTo_S16x8192_S16_d1 : S16x8192.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  shapeCasts_S28672_S1x28672 : S28672.ShapeCasts S1x28672
  inb_S1024x1024_S1024x1024_0_0 : ∀ a, (![0, 0] : Fin 2 → Nat) a + S1024x1024.size a ≤ S1024x1024.size a
  h_S1024x1024 : 0 < S1024x1024.numel
  inb_S8x16x1024_S1x16x1024_0_0_0 : ∀ a, (![0, 0, 0] : Fin 3 → Nat) a + S1x16x1024.size a ≤ S8x16x1024.size a
  h_S1x16x1024 : 0 < S1x16x1024.numel
  shapeCasts_S1x16x1024_S16x1024 : S1x16x1024.ShapeCasts S16x1024
  inb_S8x16x1024_S1x16x1024_1_0_0 : ∀ a, (![1, 0, 0] : Fin 3 → Nat) a + S1x16x1024.size a ≤ S8x16x1024.size a
  inb_S8x16x1024_S1x16x1024_2_0_0 : ∀ a, (![2, 0, 0] : Fin 3 → Nat) a + S1x16x1024.size a ≤ S8x16x1024.size a
  inb_S8x16x1024_S1x16x1024_3_0_0 : ∀ a, (![3, 0, 0] : Fin 3 → Nat) a + S1x16x1024.size a ≤ S8x16x1024.size a
  inb_S8x16x1024_S1x16x1024_4_0_0 : ∀ a, (![4, 0, 0] : Fin 3 → Nat) a + S1x16x1024.size a ≤ S8x16x1024.size a
  inb_S8x16x1024_S1x16x1024_5_0_0 : ∀ a, (![5, 0, 0] : Fin 3 → Nat) a + S1x16x1024.size a ≤ S8x16x1024.size a
  inb_S8x16x1024_S1x16x1024_6_0_0 : ∀ a, (![6, 0, 0] : Fin 3 → Nat) a + S1x16x1024.size a ≤ S8x16x1024.size a
  inb_S8x16x1024_S1x16x1024_7_0_0 : ∀ a, (![7, 0, 0] : Fin 3 → Nat) a + S1x16x1024.size a ≤ S8x16x1024.size a
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x1024 : S16x1.Broadcasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S16x1024 : S1x1024.Broadcasts S16x1024
  inb_S16x1024_S16x1024_0_0 : ∀ a, (![0, 0] : Fin 2 → Nat) a + S16x1024.size a ≤ S16x1024.size a
  h_S16x1024 : 0 < S16x1024.numel
  dot_S16x1024_S1024x1024_S16x1024_1_1_0_0_n_n_wf : DotDims.WF S16x1024 S1024x1024 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S28672x1024.size a
  hwx0_0 : ∀ i : grid0.Coords, EltTy.bits .i32 = 32 ∨ (Rect.block (s := S28672x1024) S1024x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16x1024.size a ≤ S8x16x1024.size a
  hwx0_1 : ∀ i : grid0.Coords, EltTy.bits .bf16 = 32 ∨ (Rect.block (s := S8x16x1024) S8x16x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x28672.size a
  hwx0_2 : ∀ i : grid0.Coords, EltTy.bits .f32 = 32 ∨ (Rect.block (s := S1x28672) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x28672.size a
  hwx0_4 : ∀ i : grid0.Coords, EltTy.bits .f32 = 32 ∨ (Rect.block (s := S16x28672) S16x1024.size (cc0_transform_4 i) (hinb0_4 i)).WholeWords (EltTy.packing .f32)

variable [Facts₀]

def dot_S16x1024_S1024x1024_S16x1024_1_1_0_0_n_n : DotDims S16x1024 S1024x1024 S16x1024 where
  lhsContracting := [1]
  rhsContracting := [1]
  lhsNonContracting := [0]
  rhsNonContracting := [0]
  lhsBatch := []
  rhsBatch := []
  wf := dot_S16x1024_S1024x1024_S16x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8192 : Shape := ⟨2, ![16, 8192]⟩
abbrev S28672x1024 : Shape := ⟨2, ![28672, 1024]⟩
abbrev S28672 : Shape := ⟨1, ![28672]⟩
abbrev S8 : Shape := ⟨1, ![8]⟩
abbrev S_ : Shape := ⟨0, ![]⟩
abbrev S28672x1024x1 : Shape := ⟨3, ![28672, 1024, 1]⟩
abbrev S1x1x8 : Shape := ⟨3, ![1, 1, 8]⟩
abbrev S28672x1024x8 : Shape := ⟨3, ![28672, 1024, 8]⟩
abbrev S28672x8192 : Shape := ⟨2, ![28672, 8192]⟩
abbrev S16x28672 : Shape := ⟨2, ![16, 28672]⟩
abbrev S1x28672 : Shape := ⟨2, ![1, 28672]⟩

abbrev nBuf : Space → Nat
  | .hbm => 24
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S28672x1024, .i32⟩
  | .hbm, ⟨2, _⟩ => ⟨S28672, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S28672x1024x1, .i32⟩
  | .hbm, ⟨8, _⟩ => ⟨S1x1x8, .i32⟩
  | .hbm, ⟨9, _⟩ => ⟨S28672x1024x8, .i32⟩
  | .hbm, ⟨10, _⟩ => ⟨S28672x1024x8, .i32⟩
  | .hbm, ⟨11, _⟩ => ⟨S28672x1024x8, .i32⟩
  | .hbm, ⟨12, _⟩ => ⟨S_, .i32⟩
  | .hbm, ⟨13, _⟩ => ⟨S28672x1024x8, .i32⟩
  | .hbm, ⟨14, _⟩ => ⟨S28672x1024x8, .i32⟩
  | .hbm, ⟨15, _⟩ => ⟨S28672x8192, .i32⟩
  | .hbm, ⟨16, _⟩ => ⟨S28672x8192, .f32⟩
  | .hbm, ⟨17, _⟩ => ⟨S_, .f32⟩
  | .hbm, ⟨18, _⟩ => ⟨S28672x8192, .f32⟩
  | .hbm, ⟨19, _⟩ => ⟨S28672x8192, .f32⟩
  | .hbm, ⟨20, _⟩ => ⟨S16x28672, .f32⟩
  | .hbm, ⟨21, _⟩ => ⟨S1x28672, .f32⟩
  | .hbm, ⟨22, _⟩ => ⟨S16x28672, .f32⟩
  | .hbm, ⟨23, _⟩ => ⟨S16x28672, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S28672x1024_S28672x1024x1_0_1 : S28672x1024.BroadcastsInDim S28672x1024x1 (![0, 1] : Fin 2 → Fin S28672x1024x1.rank)
  bcast_S8_S1x1x8_2 : S8.BroadcastsInDim S1x1x8 (![2] : Fin 1 → Fin S1x1x8.rank)
  bcast_S28672x1024x1_S28672x1024x8_0_1_2 : S28672x1024x1.BroadcastsInDim S28672x1024x8 (![0, 1, 2] : Fin 3 → Fin S28672x1024x8.rank)
  bcast_S1x1x8_S28672x1024x8_0_1_2 : S1x1x8.BroadcastsInDim S28672x1024x8 (![0, 1, 2] : Fin 3 → Fin S28672x1024x8.rank)
  bcast_S_S28672x1024x8 : S_.BroadcastsInDim S28672x1024x8 (![] : Fin 0 → Fin S28672x1024x8.rank)
  shapeCasts_S28672x1024x8_S28672x8192 : S28672x1024x8.ShapeCasts S28672x8192
  bcast_S_S28672x8192 : S_.BroadcastsInDim S28672x8192 (![] : Fin 0 → Fin S28672x8192.rank)
  bcast_S28672_S1x28672_1 : S28672.BroadcastsInDim S1x28672 (![1] : Fin 1 → Fin S1x28672.rank)
  bcast_S1x28672_S16x28672_0_1 : S1x28672.BroadcastsInDim S16x28672 (![0, 1] : Fin 2 → Fin S16x28672.rank)
  dot_S16x8192_S28672x8192_S16x28672_1_1_0_0_n_n_wf : DotDims.WF S16x8192 S28672x8192 S16x28672 [1] [1] [0] [0] [] []

variable [Facts₀]

def dot_S16x8192_S28672x8192_S16x28672_1_1_0_0_n_n : DotDims S16x8192 S28672x8192 S16x28672 where
  lhsContracting := [1]
  rhsContracting := [1]
  lhsNonContracting := [0]
  rhsNonContracting := [0]
  lhsBatch := []
  rhsBatch := []
  wf := dot_S16x8192_S28672x8192_S16x28672_1_1_0_0_n_n_wf

class Facts : Prop extends Facts₀ where

variable [Facts]
-- ==== Proof.Planes.lean ====
/-
  One output entry of the int4 weight-only linear layer, written two ways, and the law that joins them.

  A row of 8192 activations is cut into 8 "planes": plane `j` holds the positions `8·kp + j`, `kp < 1024`, because a
  packed 32-bit weight word `kp` carries the eight four-bit fields of positions `8·kp … 8·kp + 7`, field `j` in bits
  `4j … 4j+3`. The kernel sums plane by plane, `Σ_j Σ_kp x(8kp+j) · n(8kp+j)`, and removes the zero point afterwards as
  `8 · Σ_k x(k)`; the reference subtracts the zero point first, `Σ_k x(k) · (n(k) − 8)`. Re-indexing the sum needs only
  that + is commutative and associative on the extended reals; moving the factor `x(k)` across `n(k) − 8` is
  distributivity, which holds once every `x(k)` (and every `n(k)`, an integer in 0..15) is a real number.
-/
import Idealize.ShloMosaic.PureOps.Ideal
import Idealize.ShloMosaic.PureOps.Ideal.Laws
import Idealize.ShloMosaic.Lib.ValueIdx
import Idealize.ShloMosaic.Lib.KernelVsHost

noncomputable section

open scoped BigOperators

namespace Cert.QLinear

open Idealize.ShloMosaic Idealize.ShloMosaic.ValueIdx

/-! ## The four-bit fields of a packed word -/

/-- Field `j` of a packed word: shift right (arithmetically) by `4j` bits, keep the low four bits. -/
def nib (w : BitVec 32) (j : Fin 8) : BitVec 32 :=
  IntOp.andi (IntOp.shrsi .vector w (BitVec.ofNat 32 (4 * j.val))) 15#32

/-- Field 0 needs no shift: a shift by zero bits is the word itself. -/
theorem nib_zero (w : BitVec 32) : nib w 0 = IntOp.andi w 15#32 := by
  simp [nib, IntOp.shrsi]

/-- The reference computes the shift amount as `j · 4` in 32-bit words and shifts on the host; for `j < 8` the product
    does not wrap, and at 32 bits the host's arithmetic shift is the vector unit's. -/
theorem nib_host (w : BitVec 32) (j : Fin 8) :
    IntOp.andi (IntOp.shrsi .host w (IntOp.muli (BitVec.ofNat 32 j.val) 4#32)) 15#32 = nib w j := by
  rw [shrsi_unit .host .vector]
  unfold nib
  congr 2
  fin_cases j <;> rfl

/-- The field as a real number (an integer in 0..15), as the conversion to a float reads it. -/
def nibR (w : BitVec 32) (j : Fin 8) : ℝ := ((nib w j).toInt : ℝ)

/-! ## The eight planes of a row of 8192 -/

/-- Position `8·kp + j` of the row. -/
def at8 (kp : Fin 1024) (j : Fin 8) : Fin 8192 :=
  ⟨kp.val * 8 + j.val, by have := kp.isLt; have := j.isLt; omega⟩

/-- A position is its word and its field within the word. -/
def split8 : Fin 8192 ≃ Fin 1024 × Fin 8 where
  toFun k := (⟨k.val / 8, by have := k.isLt; omega⟩, ⟨k.val % 8, by omega⟩)
  invFun p := at8 p.1 p.2
  left_inv k := Fin.ext (by show k.val / 8 * 8 + k.val % 8 = k.val; omega)
  right_inv p := by
    obtain ⟨a, b⟩ := p
    have ha := a.isLt; have hb := b.isLt
    refine Prod.ext (Fin.ext ?_) (Fin.ext ?_)
    · show (a.val * 8 + b.val) / 8 = a.val; omega
    · show (a.val * 8 + b.val) % 8 = b.val; omega

theorem at8_div (kp : Fin 1024) (j : Fin 8) : (at8 kp j).val / 8 = kp.val := by
  have := kp.isLt; have := j.isLt; show (kp.val * 8 + j.val) / 8 = kp.val; omega

theorem at8_mod (kp : Fin 1024) (j : Fin 8) : (at8 kp j).val % 8 = j.val := by
  have := kp.isLt; have := j.isLt; show (kp.val * 8 + j.val) % 8 = j.val; omega

/-- A sum over the row is the sum over the planes of the sums within each plane. -/
theorem sum_planes {M : Type*} [AddCommMonoid M] (f : Fin 8192 → M) :
    ∑ k, f k = ∑ j : Fin 8, ∑ kp : Fin 1024, f (at8 kp j) := by
  rw [← Equiv.sum_comp split8.symm f, Fintype.sum_prod_type, Finset.sum_comm]
  rfl

/-! ## The two forms of one entry -/

/-- Plane `j`'s contribution: activations at the plane's positions times the fields there. -/
def planeSum (xs ns : Fin 8192 → EReal) (j : Fin 8) : EReal :=
  ∑ kp : Fin 1024, xs (at8 kp j) * ns (at8 kp j)

/-- The kernel's form: the planes accumulated one after the other from zero, then the zero-point correction
    `8 · (0 + Σ_k x(k))` taken off. -/
def kernelForm (xs ns : Fin 8192 → EReal) : EReal :=
  ((((((((0 + planeSum xs ns 0) + planeSum xs ns 1) + planeSum xs ns 2) + planeSum xs ns 3) + planeSum xs ns 4)
    + planeSum xs ns 5) + planeSum xs ns 6) + planeSum xs ns 7) - ((8 : ℝ) : EReal) * (0 + ∑ k, xs k)

/-- The reference's form: the zero point taken off each field before the product. -/
def refForm (xs ns : Fin 8192 → EReal) : EReal :=
  ∑ k, xs k * (ns k - ((8 : ℝ) : EReal))

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: on real activations and real fields the two forms agree —
    `Σ_j Σ_kp x·n − 8·Σ_k x = Σ_k x·(n − 8)`. -/
theorem kernelForm_eq_refForm (xs ns : Fin 8192 → EReal) (hx : ∀ k, ∃ r : ℝ, xs k = (r : EReal))
    (hn : ∀ k, ∃ r : ℝ, ns k = (r : EReal)) : kernelForm xs ns = refForm xs ns := by
  choose xr hxr using hx
  choose nr hnr using hn
  obtain rfl : xs = fun k => (xr k : EReal) := funext hxr
  obtain rfl : ns = fun k => (nr k : EReal) := funext hnr
  unfold kernelForm refForm
  simp only [zero_add]
  rw [← Fin.sum_univ_eight (fun j => planeSum (fun k => (xr k : EReal)) (fun k => (nr k : EReal)) j)]
  unfold planeSum
  rw [← sum_planes (fun k => (xr k : EReal) * (nr k : EReal))]
  simp only [← EReal.coe_mul, ← EReal.coe_sub, ← coe_sum]
  refine congrArg _ ?_
  rw [Finset.mul_sum, ← Finset.sum_sub_distrib]
  exact Finset.sum_congr rfl fun k _ => by ring

/-! ## The whole result array -/

/-- Row `b` of the activations, by position. -/
def rowX (x : (⟨2, ![16, 8192]⟩ : Shape).Idx → EReal) (b : Fin 16) : Fin 8192 → EReal := fun k => x (ix2 b k)

/-- Row `o` of the unpacked weights, by position: position `k` is field `k % 8` of packed word `k / 8`, read as a
    real number. -/
def rowN (w : (⟨2, ![28672, 1024]⟩ : Shape).Idx → BitVec 32) (o : Fin 28672) : Fin 8192 → EReal :=
  fun k => ((nibR (w (ix2 o ⟨k.val / 8, by have := k.isLt; omega⟩)) ⟨k.val % 8, by omega⟩ : ℝ) : EReal)

/-- At position `8·kp + j` that is field `j` of word `kp`. -/
theorem rowN_at8 (w : (⟨2, ![28672, 1024]⟩ : Shape).Idx → BitVec 32) (o : Fin 28672) (kp : Fin 1024) (j : Fin 8) :
    rowN w o (at8 kp j) = ((nibR (w (ix2 o kp)) j : ℝ) : EReal) := by
  unfold rowN
  have e1 : (⟨(at8 kp j).val / 8, by have := (at8 kp j).isLt; omega⟩ : Fin 1024) = kp := Fin.ext (at8_div kp j)
  have e2 : (⟨(at8 kp j).val % 8, by omega⟩ : Fin 8) = j := Fin.ext (at8_mod kp j)
  rw [e1, e2]

/-- The result as the reference forms it: entry `(b, o)` is `(Σ_k x[b,k] · (n[o,k] − 8)) · scale[o]`. -/
def G (x : (⟨2, ![16, 8192]⟩ : Shape).Idx → EReal) (w : (⟨2, ![28672, 1024]⟩ : Shape).Idx → BitVec 32)
    (s : (⟨1, ![28672]⟩ : Shape).Idx → EReal) : (⟨2, ![16, 28672]⟩ : Shape).Idx → EReal :=
  fun i => refForm (rowX x (i 0)) (rowN w (i 1)) * s (ix1 (i 1))

/-- The result as the kernel forms it: entry `(b, o)` is `(Σ_j Σ_kp x·n − 8 · Σ_k x[b,k]) · scale[o]`. -/
def Gk (x : (⟨2, ![16, 8192]⟩ : Shape).Idx → EReal) (w : (⟨2, ![28672, 1024]⟩ : Shape).Idx → BitVec 32)
    (s : (⟨1, ![28672]⟩ : Shape).Idx → EReal) : (⟨2, ![16, 28672]⟩ : Shape).Idx → EReal :=
  fun i => kernelForm (rowX x (i 0)) (rowN w (i 1)) * s (ix1 (i 1))

/-- On finite activations the two are one array. -/
theorem Gk_eq_G (x : (⟨2, ![16, 8192]⟩ : Shape).Idx → EReal) (w : (⟨2, ![28672, 1024]⟩ : Shape).Idx → BitVec 32)
    (s : (⟨1, ![28672]⟩ : Shape).Idx → EReal) (hx : ∀ i, ∃ r : ℝ, x i = (r : EReal)) : Gk x w s = G x w s := by
  funext i
  exact congrArg (· * s (ix1 (i 1)))
    (kernelForm_eq_refForm (rowX x (i 0)) (rowN w (i 1)) (fun k => hx (ix2 (i 0) k)) (fun k => ⟨_, rfl⟩))

/-- The float pattern `0x41000000` is the real number 8. -/
theorem ofBits_eight : Ideal.ofBits .f32 0x41000000#32 = ((8 : ℝ) : EReal) := by
  simp [Ideal.ofBits, Ideal.ieee, -EReal.coe_mul]; norm_num

end Cert.QLinear

end
-- ==== Proof.BodyTile.lean ====
/-
  One entry of the tile the kernel body leaves in its output buffer, as a formula of the staged blocks.

  At a grid point the body holds a `[1024, 1024]` block of packed weight words (output rows `q`, words `kp`), the
  whole `[8, 16, 1024]` plane array of activations (plane `j`, batch row `p`, word `kp`), a `[1, 1024]` block of scales
  and the `[16, 1]` column of zero-point corrections. For each plane `j` it extracts field `j` of every word (shift right
  by `4j`, mask with 15; plane 0 without the shift), converts it to a float, and contracts plane `j` of the activations
  with it over `kp`; the eight products are accumulated from zero, the correction column is subtracted, and the row
  of scales multiplied in. So entry `(p, q)` is `(0 + Σ_j Σ_kp act[j,p,kp] · field_j(word[q,kp]) − corr[p,0]) · scale[0,q]`.
-/
import proofs.«410588_j64733747085922_3_alg».proof.Proof.Gen.KernelIdeal.Frame
import proofs.«410588_j64733747085922_3_alg».proof.Proof.Planes
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Tile

open Cert.KernelIdeal Cert.KernelIdeal.Gen Idealize.ShloMosaic Idealize.ShloMosaic.ValueIdx Cert.QLinear

theorem lhs_axis0 (i : S16x1024.Idx) (q : dot_S16x1024_S1024x1024_S16x1024_1_1_0_0_n_n.contr.Idx) :
    (dot_S16x1024_S1024x1024_S16x1024_1_1_0_0_n_n.lhsIdx i q 0).val = (i 0).val := by
  unfold DotDims.lhsIdx
  rw [dif_neg (show ¬(0 : Fin S16x1024.rank) ∈ dot_S16x1024_S1024x1024_S16x1024_1_1_0_0_n_n.lhsBatch by decide), dif_pos (show (0 : Fin S16x1024.rank) ∈ dot_S16x1024_S1024x1024_S16x1024_1_1_0_0_n_n.lhsNonContracting by decide)]
  rfl
theorem lhs_axis1 (i : S16x1024.Idx) (q : dot_S16x1024_S1024x1024_S16x1024_1_1_0_0_n_n.contr.Idx) :
    (dot_S16x1024_S1024x1024_S16x1024_1_1_0_0_n_n.lhsIdx i q 1).val = (q ⟨0, by decide⟩).val :=
  dot_S16x1024_S1024x1024_S16x1024_1_1_0_0_n_n.lhsIdx_val_of_single rfl i q
theorem rhs_axis0 (i : S16x1024.Idx) (q : dot_S16x1024_S1024x1024_S16x1024_1_1_0_0_n_n.contr.Idx) :
    (dot_S16x1024_S1024x1024_S16x1024_1_1_0_0_n_n.rhsIdx i q 0).val = (i 1).val := by
  unfold DotDims.rhsIdx
  rw [dif_neg (show ¬(0 : Fin S1024x1024.rank) ∈ dot_S16x1024_S1024x1024_S16x1024_1_1_0_0_n_n.rhsBatch by decide), dif_pos (show (0 : Fin S1024x1024.rank) ∈ dot_S16x1024_S1024x1024_S16x1024_1_1_0_0_n_n.rhsNonContracting by decide)]
  rfl
theorem rhs_axis1 (i : S16x1024.Idx) (q : dot_S16x1024_S1024x1024_S16x1024_1_1_0_0_n_n.contr.Idx) :
    (dot_S16x1024_S1024x1024_S16x1024_1_1_0_0_n_n.rhsIdx i q 1).val = (q ⟨0, by decide⟩).val :=
  dot_S16x1024_S1024x1024_S16x1024_1_1_0_0_n_n.rhsIdx_val_of_single rfl i q

theorem plane_dot (l : FVec Ideal S16x1024 .bf16) (r : FVec Ideal S1024x1024 .bf16) (p : Fin 16) (q : Fin 1024) :
    matmul dot_S16x1024_S1024x1024_S16x1024_1_1_0_0_n_n none l r (constant S16x1024 .f32 0x00000000#32) (ix2 p q)
      = ∑ kp : Fin 1024, l (ix2 p kp) * r (ix2 q kp) := by
  show FloatOps.matmul _ _ _ _ _ _ = _
  rw [Ideal.matmul_constant_zero_apply, ← Equiv.sum_comp (contrEquiv1 dot_S16x1024_S1024x1024_S16x1024_1_1_0_0_n_n 1024 rfl rfl).symm]
  refine Finset.sum_congr rfl fun k _ => ?_
  have hk := contrEquiv1_symm_val dot_S16x1024_S1024x1024_S16x1024_1_1_0_0_n_n 1024 rfl rfl k
  have el : dot_S16x1024_S1024x1024_S16x1024_1_1_0_0_n_n.lhsIdx (ix2 p q) ((contrEquiv1 dot_S16x1024_S1024x1024_S16x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S16x1024_S1024x1024_S16x1024_1_1_0_0_n_n.rhsIdx (ix2 p q) ((contrEquiv1 dot_S16x1024_S1024x1024_S16x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

theorem plane_read (x1 : Vec Ideal S8x16x1024 .bf16) (j : Fin 8) (off : Fin 3 → Nat) (hoff : off = ![j.val, 0, 0])
    (inb : ∀ a, off a + S1x16x1024.size a ≤ S8x16x1024.size a) (p : Fin 16) (kp : Fin 1024) :
    shapeCast S16x1024 (View.ld x1 (Rect.unit (s := S8x16x1024) off S1x16x1024.size inb)) shapeCasts_S1x16x1024_S16x1024 (ix2 p kp)
      = x1 (ix3 j p kp) := by
  subst hoff
  rw [shapeCast_1ab_ab_apply]
  refine congrArg x1 (funext fun a => Fin.ext ?_)
  match a with
  | ⟨0, _⟩ => show j.val + 1 * 0 = j.val; omega
  | ⟨1, _⟩ => show 0 + 1 * p.val = p.val; omega
  | ⟨2, _⟩ => show 0 + 1 * kp.val = kp.val; omega

theorem hz2 : (![0, 0] : Fin 2 → Nat) = fun _ => 0 := funext fun a => by fin_cases a <;> rfl

/-- The eight plane loads: plane `j` of the staged activations, cast from `[1, 16, 1024]` to `[16, 1024]`. -/
theorem plane0 (x1 : Vec Ideal S8x16x1024 .bf16) (p : Fin 16) (kp : Fin 1024) :
    shapeCast S16x1024 (View.ld x1 r0_1) shapeCasts_S1x16x1024_S16x1024 (ix2 p kp) = x1 (ix3 (0 : Fin 8) p kp) :=
  plane_read x1 0 _ rfl _ p kp
theorem plane1 (x1 : Vec Ideal S8x16x1024 .bf16) (p : Fin 16) (kp : Fin 1024) :
    shapeCast S16x1024 (View.ld x1 r0_2) shapeCasts_S1x16x1024_S16x1024 (ix2 p kp) = x1 (ix3 (1 : Fin 8) p kp) :=
  plane_read x1 1 _ rfl _ p kp
theorem plane2 (x1 : Vec Ideal S8x16x1024 .bf16) (p : Fin 16) (kp : Fin 1024) :
    shapeCast S16x1024 (View.ld x1 r0_3) shapeCasts_S1x16x1024_S16x1024 (ix2 p kp) = x1 (ix3 (2 : Fin 8) p kp) :=
  plane_read x1 2 _ rfl _ p kp
theorem plane3 (x1 : Vec Ideal S8x16x1024 .bf16) (p : Fin 16) (kp : Fin 1024) :
    shapeCast S16x1024 (View.ld x1 r0_4) shapeCasts_S1x16x1024_S16x1024 (ix2 p kp) = x1 (ix3 (3 : Fin 8) p kp) :=
  plane_read x1 3 _ rfl _ p kp
theorem plane4 (x1 : Vec Ideal S8x16x1024 .bf16) (p : Fin 16) (kp : Fin 1024) :
    shapeCast S16x1024 (View.ld x1 r0_5) shapeCasts_S1x16x1024_S16x1024 (ix2 p kp) = x1 (ix3 (4 : Fin 8) p kp) :=
  plane_read x1 4 _ rfl _ p kp
theorem plane5 (x1 : Vec Ideal S8x16x1024 .bf16) (p : Fin 16) (kp : Fin 1024) :
    shapeCast S16x1024 (View.ld x1 r0_6) shapeCasts_S1x16x1024_S16x1024 (ix2 p kp) = x1 (ix3 (5 : Fin 8) p kp) :=
  plane_read x1 5 _ rfl _ p kp
theorem plane6 (x1 : Vec Ideal S8x16x1024 .bf16) (p : Fin 16) (kp : Fin 1024) :
    shapeCast S16x1024 (View.ld x1 r0_7) shapeCasts_S1x16x1024_S16x1024 (ix2 p kp) = x1 (ix3 (6 : Fin 8) p kp) :=
  plane_read x1 6 _ rfl _ p kp
theorem plane7 (x1 : Vec Ideal S8x16x1024 .bf16) (p : Fin 16) (kp : Fin 1024) :
    shapeCast S16x1024 (View.ld x1 r0_8) shapeCasts_S1x16x1024_S16x1024 (ix2 p kp) = x1 (ix3 (7 : Fin 8) p kp) :=
  plane_read x1 7 _ rfl _ p kp

/-- Plane 0's weights: the words masked with 15, no shift, converted: field 0 as a real. -/
theorem field0 (x0 : Vec Ideal S1024x1024 .i32) (i : S1024x1024.Idx) :
    (sitofp .bf16 (andi x0 (broadcast S1024x1024 15#32)) : FVec Ideal S1024x1024 .bf16) i = ((nibR (x0 i) 0 : ℝ) : EReal) := by
  show (((IntOp.andi (x0 i) 15#32).toInt : ℝ) : EReal) = _
  rw [← nib_zero]; rfl

/-- Plane `j`'s weights, `j ≥ 1`: the words shifted right by the literal `4j`, masked, converted: field `j` as a real. -/
theorem fieldS (x0 : Vec Ideal S1024x1024 .i32) (s : BitVec 32) (j : Fin 8) (hs : s = BitVec.ofNat 32 (4 * j.val)) (i : S1024x1024.Idx) :
    (sitofp .bf16 (andi (shrsi x0 (broadcast S1024x1024 s)) (broadcast S1024x1024 15#32)) : FVec Ideal S1024x1024 .bf16) i
      = ((nibR (x0 i) j : ℝ) : EReal) := by
  subst hs; rfl

/-- The correction column laid along every column of the tile. -/
theorem col_bcast (x3 : Vec Ideal S16x1 .f32) (p : Fin 16) (q : Fin 1024) :
    broadcastTo S16x1024 (shapeCast S16x1 x3 shapeCasts_S16x1_S16x1) broadcasts_S16x1_S16x1024 (ix2 p q) = x3 (ix2 p (0 : Fin 1)) := by
  rw [shapeCast_self]
  refine broadcastTo_apply x3 _ (ix2 p q) (ix2 p (0 : Fin 1)) fun a => ?_
  match a with
  | ⟨0, _⟩ => show p.val = if (16 : Nat) = 1 then 0 else p.val; rw [if_neg (by decide)]
  | ⟨1, _⟩ => show 0 = if (1 : Nat) = 1 then 0 else q.val; rw [if_pos rfl]

/-- The row of scales laid along every row of the tile. -/
theorem row_bcast (x2 : Vec Ideal S1x1024 .f32) (p : Fin 16) (q : Fin 1024) :
    broadcastTo S16x1024 (shapeCast S1x1024 x2 shapeCasts_S1x1024_S1x1024) broadcasts_S1x1024_S16x1024 (ix2 p q) = x2 (ix2 (0 : Fin 1) q) := by
  rw [shapeCast_self]
  exact broadcastTo_1b_ab_apply x2 _ p q

/-- Plane `j`'s contribution to tile entry `(p, q)`. -/
def tilePlane (x0 : Vec Ideal S1024x1024 .i32) (x1 : Vec Ideal S8x16x1024 .bf16) (p : Fin 16) (q : Fin 1024) (j : Fin 8) : EReal :=
  ∑ kp : Fin 1024, x1 (ix3 j p kp) * ((nibR (x0 (ix2 q kp)) j : ℝ) : EReal)

/-- A plane's sum, once its activation factor is read as plane `j` of the staged array, is that plane's contribution. -/
theorem tilePlane_of (x0 : Vec Ideal S1024x1024 .i32) (x1 : Vec Ideal S8x16x1024 .bf16) (p : Fin 16) (q : Fin 1024) (j : Fin 8)
    (L : FVec Ideal S16x1024 .bf16) (hL : ∀ kp : Fin 1024, L (ix2 p kp) = x1 (ix3 j p kp)) :
    (∑ kp : Fin 1024, L (ix2 p kp) * ((nibR (x0 (ix2 q kp)) j : ℝ) : EReal)) = tilePlane x0 x1 p q j :=
  Finset.sum_congr rfl fun kp _ => by rw [hL kp]

/-- THE TILE AT AN ENTRY. -/
theorem tile_apply (x0 : Vec Ideal S1024x1024 .i32) (x1 : Vec Ideal S8x16x1024 .bf16) (x2 : Vec Ideal S1x1024 .f32)
    (x3 : Vec Ideal S16x1 .f32) (p : Fin 16) (q : Fin 1024) :
    out0_4 x0 x1 x2 x3 (ix2 p q) =
      (((((((((0 + tilePlane x0 x1 p q 0) + tilePlane x0 x1 p q 1) + tilePlane x0 x1 p q 2) + tilePlane x0 x1 p q 3)
        + tilePlane x0 x1 p q 4) + tilePlane x0 x1 p q 5) + tilePlane x0 x1 p q 6) + tilePlane x0 x1 p q 7)
        - x3 (ix2 p (0 : Fin 1))) * x2 (ix2 (0 : Fin 1) q) := by
  unfold out0_4
  rw [View.canon_unit_zero hz2]
  simp only [View.ld_unit_zero (S := S1024x1024) hz2, View.ld_unit_zero (S := S16x1) hz2, View.ld_unit_zero (S := S1x1024) hz2]
  unfold k0_pay1 k0_pay4 k0_pay2 k0_pay3 k0_pay5
  dsimp only
  simp only [mulf_apply, subf_apply, addf_apply, plane_dot, plane0, plane1, plane2, plane3, plane4, plane5, plane6, plane7,
    field0, fieldS x0 4#32 1 rfl, fieldS x0 8#32 2 rfl, fieldS x0 12#32 3 rfl, fieldS x0 16#32 4 rfl, fieldS x0 20#32 5 rfl,
    fieldS x0 24#32 6 rfl, fieldS x0 28#32 7 rfl, broadcast_apply, Ideal.ofBits_def, Ideal.ofBits_zero_f32]
  have e0 := tilePlane_of x0 x1 p q 0 (shapeCast S16x1024 (View.ld x1 r0_1) shapeCasts_S1x16x1024_S16x1024) (plane0 x1 p)
  have e1 := tilePlane_of x0 x1 p q 1 (shapeCast S16x1024 (View.ld x1 r0_2) shapeCasts_S1x16x1024_S16x1024) (plane1 x1 p)
  have e2 := tilePlane_of x0 x1 p q 2 (shapeCast S16x1024 (View.ld x1 r0_3) shapeCasts_S1x16x1024_S16x1024) (plane2 x1 p)
  have e3 := tilePlane_of x0 x1 p q 3 (shapeCast S16x1024 (View.ld x1 r0_4) shapeCasts_S1x16x1024_S16x1024) (plane3 x1 p)
  have e4 := tilePlane_of x0 x1 p q 4 (shapeCast S16x1024 (View.ld x1 r0_5) shapeCasts_S1x16x1024_S16x1024) (plane4 x1 p)
  have e5 := tilePlane_of x0 x1 p q 5 (shapeCast S16x1024 (View.ld x1 r0_6) shapeCasts_S1x16x1024_S16x1024) (plane5 x1 p)
  have e6 := tilePlane_of x0 x1 p q 6 (shapeCast S16x1024 (View.ld x1 r0_7) shapeCasts_S1x16x1024_S16x1024) (plane6 x1 p)
  have e7 := tilePlane_of x0 x1 p q 7 (shapeCast S16x1024 (View.ld x1 r0_8) shapeCasts_S1x16x1024_S16x1024) (plane7 x1 p)
  exact congrArg₂ (· * ·) (congrArg₂ (· - ·)
    (congrArg₂ (· + ·) (congrArg₂ (· + ·) (congrArg₂ (· + ·) (congrArg₂ (· + ·) (congrArg₂ (· + ·) (congrArg₂ (· + ·)
      (congrArg₂ (· + ·) (congrArg (0 + ·) e0) e1) e2) e3) e4) e5) e6) e7)
    (col_bcast x3 p q)) (row_bcast x2 p q)

/-- A plane's contribution, once the staged words are rows `o` of the packed weights and the staged planes are the
    activations re-laid, is that plane's sum in the kernel's form of entry `(p, o)`. -/
theorem tilePlane_eq (X0 : Vec Ideal S1024x1024 .i32) (X1 : Vec Ideal S8x16x1024 .bf16)
    (x : (⟨2, ![16, 8192]⟩ : Shape).Idx → EReal) (w : (⟨2, ![28672, 1024]⟩ : Shape).Idx → BitVec 32)
    (p : Fin 16) (q : Fin 1024) (o : Fin 28672) (j : Fin 8)
    (hW : ∀ kp : Fin 1024, X0 (ix2 q kp) = w (ix2 o kp))
    (hP : ∀ (j : Fin 8) (kp : Fin 1024), X1 (ix3 j p kp) = x (ix2 p (at8 kp j))) :
    tilePlane X0 X1 p q j = planeSum (rowX x p) (rowN w o) j := by
  unfold tilePlane planeSum
  refine Finset.sum_congr rfl fun kp _ => ?_
  rw [hP, hW, rowN_at8]
  rfl

/-- THE TILE IS A TILE OF `Gk`: with the staged blocks read as what they are of the argument arrays — words of rows
    `o`, the re-laid activations, the correction `8 · (0 + Σ_k x[p,k])`, the scale of row `o` —, tile entry `(p, q)` is
    entry `(p, o)` of the kernel's form of the result. -/
theorem tile_is_Gk (X0 : Vec Ideal S1024x1024 .i32) (X1 : Vec Ideal S8x16x1024 .bf16) (X2 : Vec Ideal S1x1024 .f32)
    (X3 : Vec Ideal S16x1 .f32) (x : (⟨2, ![16, 8192]⟩ : Shape).Idx → EReal)
    (w : (⟨2, ![28672, 1024]⟩ : Shape).Idx → BitVec 32) (s : (⟨1, ![28672]⟩ : Shape).Idx → EReal)
    (p : Fin 16) (q : Fin 1024) (o : Fin 28672)
    (hW : ∀ kp : Fin 1024, X0 (ix2 q kp) = w (ix2 o kp))
    (hP : ∀ (j : Fin 8) (kp : Fin 1024), X1 (ix3 j p kp) = x (ix2 p (at8 kp j)))
    (hC : X3 (ix2 p (0 : Fin 1)) = ((8 : ℝ) : EReal) * (0 + ∑ k : Fin 8192, x (ix2 p k)))
    (hS : X2 (ix2 (0 : Fin 1) q) = s (ix1 o)) :
    out0_4 X0 X1 X2 X3 (ix2 p q) = Gk x w s (ix2 p o) := by
  rw [tile_apply, hC, hS]
  simp only [tilePlane_eq X0 X1 x w p q o _ hW hP]
  rfl

end Cert.KernelIdeal.Tile

end
-- ==== Proof.HostPrep.lean ====
/-
  What the host operations before the kernel leave in the three arrays the kernel stages besides the packed weights.

  The activations `x : [16, 8192]` are reshaped to `[16, 1024, 8]` and transposed to planes `[8, 16, 1024]` (the narrowing
  to bf16 is the identity on extended reals): plane `j`, row `b`, word `kp` is `x[b, 8·kp + j]`. The zero-point correction
  is the column `8 · (0 + Σ_k x[b, k])` (a host sum from the initial value zero, times the constant 8). The scales
  are reshaped from `[28672]` to one row `[1, 28672]`.
-/
import proofs.«410588_j64733747085922_3_alg».proof.Proof.Gen.KernelIdeal.Frame
import proofs.«410588_j64733747085922_3_alg».proof.Proof.Planes
import Idealize.ShloMosaic.Lib.StableHlo.Run
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Prep

open Cert.KernelIdeal Cert.KernelIdeal.Gen Idealize.ShloMosaic Idealize.ShloMosaic.TcCoe Idealize.ShloMosaic.ValueIdx Idealize.SL.Sem Cert.QLinear
open Idealize.ShloMosaic.StableHlo

variable (m : (ℓ : Loc nD τ sig) → Buf (Elt Ideal) ℓ)

/-- The three argument arrays as launched, at their literal types. -/
abbrev xArr (c : Dev nD) : S16x8192.Idx → EReal := m ((c : Thread nD τ).loc main_arg0)
abbrev wArr (c : Dev nD) : S28672x1024.Idx → BitVec 32 := m ((c : Thread nD τ).loc main_arg1)
abbrev sArr (c : Dev nD) : S28672.Idx → EReal := m ((c : Thread nD τ).loc main_arg2)

theorem planes_eq (c : Dev nD) : @Eq (S8x16x1024.Idx → EReal) (V m c main_v2)
    (truncf (F := Ideal) .bf16 (transpose S8x16x1024 [2, 0, 1] (shapeCast S16x1024x8 (m ((c : Thread nD τ).loc main_arg0)) shapeCasts_S16x8192_S16x1024x8) transposes_S16x1024x8_S8x16x1024_2_0_1) bitsLt_bf16_f32) := by
  dsimp only [V, hostOps0]
  after_results <;> rfl

theorem corr_eq (c : Dev nD) : @Eq (S16x1.Idx → EReal) (V m c main_v6)
    (mulf (F := Ideal) (φ := .f32) (broadcastInDim S16x1 ![] bcast_S_S16x1 (constant (F := Ideal) S_ .f32 0x41000000#32))
      (broadcastInDim S16x1 ![0] bcast_S16_S16x1_0 (Host.reduceAdd (m ((c : Thread nD τ).loc main_arg0)) (constant (F := Ideal) S_ .f32 0x00000000#32) reducesTo_S16x8192_S16_d1 h_S_))) := by
  dsimp only [V, hostOps0]
  after_results <;> rfl

theorem scales_eq (c : Dev nD) : @Eq (S1x28672.Idx → EReal) (V m c main_v7)
    (shapeCast S1x28672 (m ((c : Thread nD τ).loc main_arg2)) shapeCasts_S28672_S1x28672) := by
  dsimp only [V, hostOps0]
  after_results <;> rfl

/-- Plane `j`, row `b`, word `kp` of the staged activations is `x[b, 8·kp + j]`. -/
theorem planes_apply (c : Dev nD) (j : Fin 8) (b : Fin 16) (kp : Fin 1024) :
    (V m c main_v2 : S8x16x1024.Idx → EReal) (ix3 j b kp) = xArr m c (ix2 b (at8 kp j)) := by
  refine (congrFun (planes_eq m c) (ix3 j b kp)).trans ?_
  show (transpose S8x16x1024 [2, 0, 1] (shapeCast S16x1024x8 (xArr m c) shapeCasts_S16x8192_S16x1024x8)
    transposes_S16x1024x8_S8x16x1024_2_0_1 : S8x16x1024.Idx → EReal) (ix3 j b kp) = _
  refine (transpose_apply [2, 0, 1] _ transposes_S16x1024x8_S8x16x1024_2_0_1 (ix3 j b kp) (ix3 b kp j)
    (fun a => match a with | ⟨0, _⟩ => rfl | ⟨1, _⟩ => rfl | ⟨2, _⟩ => rfl)).trans ?_
  have hb := b.isLt; have hkp := kp.isLt; have hj := j.isLt
  exact shapeCast_apply (xArr m c) shapeCasts_S16x8192_S16x1024x8 (ix3 b kp j) (ix2 b (at8 kp j)) (by
    rw [Shape.rowMajor_val_two, Shape.rowMajor_val_three]
    show b.val * 8192 + (kp.val * 8 + j.val) = (b.val * 1024 + kp.val) * 8 + j.val
    omega)

/-- Row `b` of the correction column is `8 · (0 + Σ_k x[b, k])`. -/
theorem corr_apply (c : Dev nD) (b : Fin 16) :
    (V m c main_v6 : S16x1.Idx → EReal) (ix2 b (0 : Fin 1))
      = ((8 : ℝ) : EReal) * (0 + ∑ k : Fin 8192, xArr m c (ix2 b k)) := by
  refine (congrFun (corr_eq m c) (ix2 b (0 : Fin 1))).trans ?_
  rw [mulf_apply, broadcastInDim_scalar_apply, constant_apply, ofBits_eight]
  refine congrArg (((8 : ℝ) : EReal) * ·) ?_
  rw [broadcastInDim_apply ![0] bcast_S16_S16x1_0 _ (ix2 b (0 : Fin 1)) (ix1 b) (fun a => match a with
    | ⟨0, _⟩ => by show b.val = if (16 : Nat) = 1 then 0 else b.val; rw [if_neg (by decide)])]
  rw [hostReduceAdd_apply, Ideal.hostReduceAdd_single reducesTo_S16x8192_S16_d1 (by decide)]
  rw [constant_apply, Ideal.ofBits_zero_f32]
  refine congrArg (0 + ·) (Finset.sum_congr rfl fun k _ => congrArg (xArr m c) (funext fun a => Fin.ext ?_))
  match a with
  | ⟨0, _⟩ => rfl
  | ⟨1, _⟩ => rfl

/-- Entry `o` of the scale row is `scale[o]`. -/
theorem scales_apply (c : Dev nD) (o : Fin 28672) :
    (V m c main_v7 : S1x28672.Idx → EReal) (ix2 (0 : Fin 1) o) = sArr m c (ix1 o) := by
  refine (congrFun (scales_eq m c) (ix2 (0 : Fin 1) o)).trans ?_
  exact shapeCast_a_1a_apply (sArr m c) shapeCasts_S28672_S1x28672 (0 : Fin 1) o

end Cert.KernelIdeal.Prep

end
-- ==== Proof.TileCover.lean ====
/-
  From the tiles to the whole result array.

  The grid has 28 points; point `t` stages rows `1024·t … 1024·t + 1023` of the packed weights and of the scale row, the
  whole plane array and the whole correction column (their block index stays 0), and writes back columns
  `1024·t … 1024·t + 1023` of the `[16, 28672]` result. So the tile of point `t` is block `t` of ONE array, the kernel's form
  `Gk` of the result, and the 28 blocks cover every column: column `o` is in the block of point `o / 1024`.
-/
import proofs.«410588_j64733747085922_3_alg».proof.Proof.Gen.KernelIdeal.Value
import proofs.«410588_j64733747085922_3_alg».proof.Proof.BodyTile
import proofs.«410588_j64733747085922_3_alg».proof.Proof.HostPrep

set_option maxRecDepth 16384

noncomputable section

open scoped BigOperators

namespace Cert.KernelIdeal.Cover

open Cert.KernelIdeal Cert.KernelIdeal.Gen Cert.KernelIdeal.Tile Cert.KernelIdeal.Prep Idealize.ShloMosaic Idealize.ShloMosaic.TcCoe
open Idealize.ShloMosaic.ValueIdx Idealize.SL.Sem Cert.QLinear
open Idealize.ShloMosaic.Pipeline (Dat)

variable (m : (ℓ : Loc nD τ sig) → Buf (Elt Ideal) ℓ) (ρ : Dev nD → PrngReg)

/-- The printed index maps, decided over the 28 points: the weights', the scales' and the result's block index is the
    point; the plane array's and the correction column's stays at the origin. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

theorem point_lt (t : Fin cfg0.N) : t.val < 28 := Nat.lt_of_lt_of_eq t.isLt N_0

/-- WHAT POINT `t` WRITES BACK is block `t` of `Gk` of the argument arrays. -/
theorem flushed_eq (c : Dev nD) (t : Fin cfg0.N) :
    (dats m 0 c).flushed 4 t = ((cfg0.win 4).blk t).view.read (Elt Ideal) (Gk (xArr m c) (wArr m c) (sArr m c)) := by
  rw [Value.flushed4]
  obtain ⟨e00, e01, e10, e11, e12, e20, e21, e30, e31, e40, e41⟩ := idx_facts t
  have ht := point_lt t
  funext y
  obtain ⟨p, q, rfl⟩ : ∃ (p : Fin 16) (q : Fin 1024), y = ix2 p q := ⟨y 0, y 1, eq_ix2 y⟩
  have hq := q.isLt
  have hp := p.isLt
  show out0_4 (iblk m c 0 t) (iblk m c 1 t) (iblk m c 2 t) (iblk m c 3 t) (ix2 p q)
    = Gk (xArr m c) (wArr m c) (sArr m c) (((cfg0.win 4).blk t).view.emb (ix2 p q))
  have hemb : ((cfg0.win 4).blk t).view.emb (ix2 p q) = ix2 p (⟨t.val * 1024 + q.val, by omega⟩ : Fin 28672) := by
    funext a; apply Fin.ext
    match a with
    | ⟨0, _⟩ => show win0_4.index t (0 : Fin 2) * 16 + 1 * p.val = p.val; omega
    | ⟨1, _⟩ => show win0_4.index t (1 : Fin 2) * 1024 + 1 * q.val = t.val * 1024 + q.val; omega
  rw [hemb]
  have hV1 : (V m c main_arg1 : S28672x1024.Idx → BitVec 32) = wArr m c := V_main_arg1 m c
  refine tile_is_Gk (iblk m c 0 t) (iblk m c 1 t) (iblk m c 2 t) (iblk m c 3 t) (xArr m c) (wArr m c) (sArr m c) p q
    (⟨t.val * 1024 + q.val, by omega⟩ : Fin 28672) ?_ ?_ ?_ ?_
  · -- the staged words are rows `1024·t + q` of the packed weights
    intro kp
    have hkp := kp.isLt
    show (V m c main_arg1 : S28672x1024.Idx → BitVec 32) (((cfg0.win 0).blk t).view.emb (ix2 q kp)) = _
    rw [hV1]
    refine congrArg (wArr m c) (funext fun a => Fin.ext ?_)
    match a with
    | ⟨0, _⟩ => show win0_0.index t (0 : Fin 2) * 1024 + 1 * q.val = t.val * 1024 + q.val; omega
    | ⟨1, _⟩ => show win0_0.index t (1 : Fin 2) * 1024 + 1 * kp.val = kp.val; omega
  · -- the staged planes are the whole plane array
    intro j kp
    have hkp := kp.isLt
    have hj := j.isLt
    show (V m c main_v2 : S8x16x1024.Idx → EReal) (((cfg0.win 1).blk t).view.emb (ix3 j p kp)) = _
    rw [← planes_apply m c j p kp]
    refine congrArg (V m c main_v2 : S8x16x1024.Idx → EReal) (funext fun a => Fin.ext ?_)
    match a with
    | ⟨0, _⟩ => show win0_1.index t (0 : Fin 3) * 8 + 1 * j.val = j.val; omega
    | ⟨1, _⟩ => show win0_1.index t (1 : Fin 3) * 16 + 1 * p.val = p.val; omega
    | ⟨2, _⟩ => show win0_1.index t (2 : Fin 3) * 1024 + 1 * kp.val = kp.val; omega
  · -- the staged correction column is the whole column
    show (V m c main_v6 : S16x1.Idx → EReal) (((cfg0.win 3).blk t).view.emb (ix2 p (0 : Fin 1))) = _
    rw [← corr_apply m c p]
    refine congrArg (V m c main_v6 : S16x1.Idx → EReal) (funext fun a => Fin.ext ?_)
    match a with
    | ⟨0, _⟩ => show win0_3.index t (0 : Fin 2) * 16 + 1 * p.val = p.val; omega
    | ⟨1, _⟩ => show win0_3.index t (1 : Fin 2) * 1 + 1 * 0 = 0; omega
  · -- the staged scales are columns `1024·t …` of the scale row
    show (V m c main_v7 : S1x28672.Idx → EReal) (((cfg0.win 2).blk t).view.emb (ix2 (0 : Fin 1) q)) = _
    rw [← scales_apply m c (⟨t.val * 1024 + q.val, by omega⟩ : Fin 28672)]
    refine congrArg (V m c main_v7 : S1x28672.Idx → EReal) (funext fun a => Fin.ext ?_)
    match a with
    | ⟨0, _⟩ => show win0_2.index t (0 : Fin 2) * 1 + 1 * 0 = 0; omega
    | ⟨1, _⟩ => show win0_2.index t (1 : Fin 2) * 1024 + 1 * q.val = t.val * 1024 + q.val; omega

/-- An index of the result is in point `t`'s block iff each coordinate is in the block's range on its axis. -/
theorem mem_blk (t : Fin cfg0.N) (i : S16x28672.Idx) :
    i ∈ ((cfg0.win 4).blk t).view.set ↔ ∀ a : Fin 2, win0_4.index t a * S16x1024.size a ≤ (i a).val
      ∧ (i a).val < win0_4.index t a * S16x1024.size a + S16x1024.size a := by
  show i ∈ ((View.whole main_v8).slice (win0_4.rect t)).set ↔ _
  rw [View.set_slice_whole, Rect.mem_set_unit]
  exact Iff.rfl

/-- Every entry of the result is in some point's block: column `o` in the block of point `o / 1024`. -/
theorem cover (i : S16x28672.Idx) :
    ∃ t : Fin cfg0.N, (cfg0.win 4).flush t = true ∧ i ∈ ((cfg0.win 4).blk t).view.set := by
  have h0 : (i 0).val < 16 := (i 0).isLt
  have h1 : (i 1).val < 28672 := (i 1).isLt
  have hN : (i 1).val / 1024 < cfg0.N := by rw [show cfg0.N = 28 from N_0]; omega
  refine ⟨⟨(i 1).val / 1024, hN⟩, flush0_4 _, ?_⟩
  rw [mem_blk]
  obtain ⟨-, -, -, -, -, -, -, -, -, e40, e41⟩ := idx_facts ⟨(i 1).val / 1024, hN⟩
  intro a
  match a with
  | ⟨0, _⟩ =>
    show win0_4.index ⟨(i 1).val / 1024, hN⟩ (0 : Fin 2) * 16 ≤ (i 0).val
      ∧ (i 0).val < win0_4.index ⟨(i 1).val / 1024, hN⟩ (0 : Fin 2) * 16 + 16
    omega
  | ⟨1, _⟩ =>
    show win0_4.index ⟨(i 1).val / 1024, hN⟩ (1 : Fin 2) * 1024 ≤ (i 1).val
      ∧ (i 1).val < win0_4.index ⟨(i 1).val / 1024, hN⟩ (1 : Fin 2) * 1024 + 1024
    have e : win0_4.index ⟨(i 1).val / 1024, hN⟩ (1 : Fin 2) = (i 1).val / 1024 := e41
    omega

/-- THE RESULT ARRAY after the run is `Gk` of the argument arrays. -/
theorem final (c : Dev nD) : (dats m 0 c).arrAt 4 cfg0.N = Gk (xArr m c) (wArr m c) (sArr m c) :=
  (dats m 0 c).arrAt_eq_of_cover 4 (Gk (xArr m c) (wArr m c) (sArr m c)) (fun t _ => flushed_eq m c t) cover

/-- The kernel's run, read: the result array at `Gk` of the arguments, the arguments unchanged. -/
theorem run : θ_run defs (onTc (τ := τ) (main (F := Ideal))) ⟨m, fun _ => 0, ρ⟩ fun r => ∀ c : Dev nD,
      r.2.mem ((c : Thread nD τ).loc main_v8) = Gk (xArr m c) (wArr m c) (sArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Cover

end
-- ==== Proof.RefRow.lean ====
/-
  The reference's result array is `G`: entry `(b, o)` is `(Σ_k x[b,k] · (n[o,k] − 8)) · scale[o]`.

  The reference unpacks the weights to a `[28672, 1024, 8]` array (field `j` of word `kp` at `[o, kp, j]`: the word
  broadcast along the last axis, shifted right by `iota · 4`, masked with 15), reshapes it to `[28672, 8192]` — so that
  column `k` is field `k % 8` of word `k / 8` —, converts to float, subtracts 8, contracts with the activations over
  `k`, and multiplies row-wise by the scales.
-/
import proofs.«410588_j64733747085922_3_alg».proof.Proof.Gen.ReferenceIdeal.Read
import proofs.«410588_j64733747085922_3_alg».proof.Proof.Planes

noncomputable section

open scoped BigOperators

namespace Cert.ReferenceIdeal.RefValue

open Cert.ReferenceIdeal Cert.ReferenceIdeal.Gen Cert.ReferenceIdeal.Read Idealize.ShloMosaic Idealize.ShloMosaic.ValueIdx Cert.QLinear

/-- Entry `(o, k)` of the dequantized weights before scaling: field `k % 8` of word `k / 8` of row `o`, minus 8. -/
theorem unpacked_apply (w : IVec S28672x1024 32) (o : Fin 28672) (k : Fin 8192) :
    val_main_v13 (F := Ideal) w (ix2 o k) = rowN w o k - ((8 : ℝ) : EReal) := by
  rw [val_main_v13_apply, val_main_v11_apply, val_main_v12_apply, val_main_cst_apply, val_main_v10_apply, val_main_v9_apply,
    val_main_v8_apply, val_main_c_0_apply, val_main_v7_apply, val_main_v5_apply, val_main_v3_apply, val_main_v6_apply,
    val_main_v4_apply, val_main_v2_apply, val_main_v0_apply, val_main_v1_apply, val_main_c_apply]
  have ho := o.isLt
  have hk := k.isLt
  -- row-major position `o · 8192 + k` of the reshaped array is `[o, k / 8, k % 8]` of the unpacked one
  have hI : idx_main_v3 (idx_main_v5 (idx_main_v10 (ix2 o k))) = ix2 o ⟨k.val / 8, by omega⟩ := by
    funext a; apply Fin.ext
    match a with
    | ⟨0, _⟩ => show (o.val * 8192 + k.val) / 8192 = o.val; omega
    | ⟨1, _⟩ => show (o.val * 8192 + k.val) / 8 % 1024 = k.val / 8; omega
  have hJ : ((idx_main_v4 (idx_main_v6 (idx_main_v10 (ix2 o k))) 0 : Fin 8) : ℕ) = k.val % 8 := by
    show (o.val * 8192 + k.val) % 8 = k.val % 8; omega
  rw [hI, hJ, show FloatOps.ofBits (F := Ideal) .f32 0x41000000#32 = ((8 : ℝ) : EReal) from ofBits_eight]
  exact congrArg (fun z : BitVec 32 => (((z.toInt : ℝ) : EReal)) - ((8 : ℝ) : EReal))
    (nib_host (w (ix2 o ⟨k.val / 8, by omega⟩)) ⟨k.val % 8, by omega⟩)

/-- THE REFERENCE'S RESULT is `G` of the arguments. -/
theorem result_eq (x : FVec Ideal S16x8192 .f32) (w : IVec S28672x1024 32) (s : FVec Ideal S28672 .f32) :
    val_main_v17 (F := Ideal) x w s = G x w s := by
  funext i
  obtain ⟨b, o, rfl⟩ : ∃ (b : Fin 16) (o : Fin 28672), i = ix2 b o := ⟨i 0, i 1, eq_ix2 i⟩
  rw [val_main_v17_apply, val_main_v14_apply, val_main_v16_apply, val_main_v15_apply]
  show (∑ k : Fin 8192, x (lidx_main_v14 (ix2 b o) k) * val_main_v13 (F := Ideal) w (ridx_main_v14 (ix2 b o) k))
      * s (idx_main_v15 (idx_main_v16 (ix2 b o))) = (∑ k, rowX x b k * (rowN w o k - ((8 : ℝ) : EReal))) * s (ix1 o)
  congr 1
  · refine Finset.sum_congr rfl fun k _ => ?_
    have e1 : lidx_main_v14 (ix2 b o) k = ix2 b k := funext fun a => by
      match a with
      | ⟨0, _⟩ => rfl
      | ⟨1, _⟩ => rfl
    have e2 : ridx_main_v14 (ix2 b o) k = ix2 o k := funext fun a => by
      match a with
      | ⟨0, _⟩ => rfl
      | ⟨1, _⟩ => rfl
    rw [e1, e2, unpacked_apply]
    rfl
  · exact congrArg s (funext fun a => by
      match a with
      | ⟨0, _⟩ => rfl)

end Cert.ReferenceIdeal.RefValue

end
-- ==== Proof.FiniteX.lean ====
/-
  The precondition says every activation is a real number.

  The printed precondition is `all(|x| < +inf) and all(|scale| < +inf)`: a conjunction of two and-reductions of
  elementwise comparisons. Reading the first at an index gives `max x (−x) < ⊤`, which excludes both infinities.
-/
import proofs.«410588_j64733747085922_3_alg».proof.Pre_finite_inputs
import proofs.«410588_j64733747085922_3_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.IdealHost

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The float pattern `0x7F800000` is `+∞`. -/
theorem inf_bits : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every activation is a real number. -/
theorem x_finite (x : FVec Ideal S16x8192 .f32) (w : IVec S28672x1024 32) (s : FVec Ideal S28672 .f32)
    (h : fn (F := Ideal) x w s = fun _ => 1#1) (i : S16x8192.Idx) : ∃ r : ℝ, x i = (r : EReal) := by
  have h0 := congrFun h ix0
  dsimp only [fn] at h0
  obtain ⟨h1, -⟩ := IntOp.andi_eq_one.mp h0
  have hi := Host.reduce_andi_all _ _ _ _ _ h1 i
  have h2 : Ideal.cmp .olt (max (x i) (-(x i))) (Ideal.ofBits .f32 0x7F800000#32) = 1#1 := hi
  rw [inf_bits] at h2
  have hlt : max (x i) (-(x i)) < (⊤ : EReal) := by
    by_contra hn
    simp [Ideal.cmp, hn] at h2
  exact real_of_abs_lt_top _ hlt

end Cert.Pre_finite_inputs.Finite

end
-- ==== Proof.lean ====
/-
  Int4 weight-only linear layer (batch 16, 8192 inputs, 28672 outputs): the Pallas kernel against its jnp reference, over
  the extended reals.

  Both compute `out[b, o] = scale[o] · Σ_k x[b, k] · (n[o, k] − 8)`, where `n[o, k]` is the four-bit field `k % 8` of the
  packed word `k / 8` of weight row `o`. The reference unpacks all fields to a `[28672, 8192]` array, subtracts the zero
  point 8, and contracts with `x`. The kernel re-lays `x` on the host as 8 planes (plane `j` holds the positions
  `8·kp + j`), and per tile of 1024 output rows contracts plane `j` with field `j` of the words, accumulating the 8
  products; the zero point is folded out as `8 · Σ_k x[b, k]`, computed once on the host and subtracted at the end.
  The two agree by re-indexing the sum over `k` as a sum over (plane, word) and by distributivity, which on the extended
  reals needs every `x[b, k]` finite: that is what the precondition gives. The kernel's blocks tile the result
  (28 tiles of 1024 columns), so the kernel's array is one function of the arguments; the frames of the two kernel
  programs are the generated ones, the reference's frame is its run with the result dropped, and nothing was
  rewritten by the idealization.
-/
import proofs.«410588_j64733747085922_3_alg».proof.Defs
import proofs.«410588_j64733747085922_3_alg».proof.Proof.Gen.Kernel
import proofs.«410588_j64733747085922_3_alg».proof.Proof.Gen.Kernel.Skeleton
import proofs.«410588_j64733747085922_3_alg».proof.Proof.Gen.Kernel.Launch
import proofs.«410588_j64733747085922_3_alg».proof.Proof.Gen.Kernel.Points
import proofs.«410588_j64733747085922_3_alg».proof.Proof.Gen.Kernel.Frame
import proofs.«410588_j64733747085922_3_alg».proof.Proof.Gen.KernelIdeal
import proofs.«410588_j64733747085922_3_alg».proof.Proof.Gen.KernelIdeal.Skeleton
import proofs.«410588_j64733747085922_3_alg».proof.Proof.Gen.KernelIdeal.Launch
import proofs.«410588_j64733747085922_3_alg».proof.Proof.Gen.KernelIdeal.Points
import proofs.«410588_j64733747085922_3_alg».proof.Proof.Gen.KernelIdeal.Frame
import proofs.«410588_j64733747085922_3_alg».proof.Proof.Gen.ReferenceIdeal
import proofs.«410588_j64733747085922_3_alg».proof.Proof.Gen.Pre_finite_inputs
import proofs.«410588_j64733747085922_3_alg».proof.Proof.Gen.KernelIdeal.Value
import proofs.«410588_j64733747085922_3_alg».proof.Proof.Gen.ReferenceIdeal.Run
import proofs.«410588_j64733747085922_3_alg».proof.Proof.Gen.ReferenceIdeal.Read
import proofs.«410588_j64733747085922_3_alg».proof.Proof.TileCover
import proofs.«410588_j64733747085922_3_alg».proof.Proof.RefRow
import proofs.«410588_j64733747085922_3_alg».proof.Proof.FiniteX
import Idealize.ShloMosaic.Adequacy
import Idealize.ShloMosaic.Init

noncomputable section

namespace Cert.Proof

open Idealize.ShloMosaic Idealize.SL.Sem Cert.QLinear

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `G` of the arguments: the kernel at its own form `Gk`, which is `G` on finite
    activations (the precondition); the reference at `G` outright. -/
theorem algebraic : Cert.algebraic_KernelIdeal_ReferenceIdeal := by
  intro m ρ m' ρ' hpre hagree
  refine ⟨fun c => G (Cert.KernelIdeal.Prep.xArr m c) (Cert.KernelIdeal.Prep.wArr m c) (Cert.KernelIdeal.Prep.sArr m c), ?_, ?_⟩
  · refine (θ_run Cert.KernelIdeal.defs _ _).mono (fun r h c => ⟨(h c).1.trans ?_, (h c).2⟩) (Cert.KernelIdeal.Cover.run m ρ)
    exact Gk_eq_G _ _ _ (fun i => Cert.Pre_finite_inputs.Finite.x_finite _ _ _ (hpre c) i)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact (Cert.ReferenceIdeal.Read.val_main_v17_eq (F := Ideal) _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
